-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2560 : Shape := ⟨2, ![4096, 2560]⟩
abbrev S2048x1024 : Shape := ⟨2, ![2048, 1024]⟩
abbrev S2048x2048 : Shape := ⟨2, ![2048, 2048]⟩
abbrev S6144x1024 : Shape := ⟨2, ![6144, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2560 : S_.BroadcastsInDim S4096x2560 (![] : Fin 0 → Fin S4096x2560.rank)
  reducesTo_S4096x2560_S_d0_1 : S4096x2560.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S6144x1024 : S_.BroadcastsInDim S6144x1024 (![] : Fin 0 → Fin S6144x1024.rank)
  reducesTo_S6144x1024_S_d0_1 : S6144x1024.ReducesTo [0, 1] S_

variable [Facts]

def fn_part1 {F : FTy → Type} [FloatOps F] (main_arg4 : FVec F S6144x1024 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S6144x1024 .f32 := Host.absf main_arg4
  let main_cst_6 : FVec F S_ .f32 := constant S_ .f32 0x7F800000#32
  let main_v20 : FVec F S6144x1024 .f32 := broadcastInDim S6144x1024 ![] bcast_S_S6144x1024 main_cst_6
  let main_v21 : IVec S6144x1024 1 := cmpf .olt main_v19 main_v20
  let main_c_7 : IVec S_ 1 := constantI S_ 1 1#1
  let main_v22 : IVec S_ 1 := (fun x v => Host.reduce IntOp.andi x v reducesTo_S6144x1024_S_d0_1 h_S_) main_v21 main_c_7
  let main_v23 : IVec S_ 1 := andi main_v18 main_v22
  main_v23

def fn {F : FTy → Type} [FloatOps F] (main_arg0 : FVec F S4096x1024 .f32) (main_arg1 : FVec F S4096x2560 .f32) (main_arg2 : FVec F S2048x1024 .f32) (main_arg3 : FVec F S2048x2048 .f32) (main_arg4 : FVec F S6144x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2560 .f32 := Host.absf main_arg1
  let main_cst_0 : FVec F S_ .f32 := constant S_ .f32 0x7F800000#32
  let main_v5 : FVec F S4096x2560 .f32 := broadcastInDim S4096x2560 ![] bcast_S_S4096x2560 main_cst_0
  let main_v6 : IVec S4096x2560 1 := cmpf .olt main_v4 main_v5
  let main_c_1 : IVec S_ 1 := constantI S_ 1 1#1
  let main_v7 : IVec S_ 1 := (fun x v => Host.reduce IntOp.andi x v reducesTo_S4096x2560_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S4096x1024 : Shape := ⟨2, ![4096, 1024]⟩
abbrev S4096x2560 : Shape := ⟨2, ![4096, 2560]⟩
abbrev S2048x1024 : Shape := ⟨2, ![2048, 1024]⟩
abbrev S2048x2048 : Shape := ⟨2, ![2048, 2048]⟩
abbrev S6144x1024 : Shape := ⟨2, ![6144, 1024]⟩
abbrev S4096x2048 : Shape := ⟨2, ![4096, 2048]⟩
abbrev S128x1024 : Shape := ⟨2, ![128, 1024]⟩
abbrev S128x2048 : Shape := ⟨2, ![128, 2048]⟩
abbrev S128x2560 : Shape := ⟨2, ![128, 2560]⟩
abbrev S1024x2048 : Shape := ⟨2, ![1024, 2048]⟩
abbrev S128x512 : Shape := ⟨2, ![128, 512]⟩

abbrev nBuf : Space → Nat
  | .hbm => 15
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S2048x1024, .f32⟩
  | .hbm, ⟨3, _⟩ => ⟨S2048x2048, .f32⟩
  | .hbm, ⟨4, _⟩ => ⟨S6144x1024, .f32⟩
  | .hbm, ⟨5, _⟩ => ⟨S4096x2048, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .bf16⟩
  | .hbm, ⟨10, _⟩ => ⟨S2048x2048, .bf16⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S4096x2560, .f32⟩
  | .local _ .vmem, ⟨0, _⟩ => ⟨S128x1024, .f32⟩
  | .local _ .vmem, ⟨1, _⟩ => ⟨S128x1024, .f32⟩
  | .local _ .vmem, ⟨2, _⟩ => ⟨S128x2048, .f32⟩
  | .local _ .vmem, ⟨3, _⟩ => ⟨S128x2048, .f32⟩
  | .local _ .vmem, ⟨4, _⟩ => ⟨S2048x1024, .bf16⟩
  | .local _ .vmem, ⟨5, _⟩ => ⟨S2048x2048, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S128x2560, .f32⟩
  | .local _ .vmem, ⟨10, _⟩ => ⟨S128x2560, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S4096x2560_S4096x2048_0_0 : S4096x2560.Slices ![0, 0] S4096x2048
  slices_S6144x1024_S2048x1024_0_0 : S6144x1024.Slices ![0, 0] S2048x1024
  slices_S6144x1024_S2048x1024_2048_0 : S6144x1024.Slices ![2048, 0] S2048x1024
  slices_S6144x1024_S2048x1024_4096_0 : S6144x1024.Slices ![4096, 0] S2048x1024
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  transposes_S2048x1024_p1_0_S1024x2048 : S2048x1024.Transposes [1, 0] S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  transposes_S2048x2048_p1_0_S2048x2048 : S2048x2048.Transposes [1, 0] S2048x2048
  inb_S128x2560_S128x2048_0_0 : ∀ a, (![0, 0] : Fin 2 → Nat) a + S128x2048.size a ≤ S128x2560.size a
  inb_S128x2560_S128x512_0_2048 : ∀ a, (![0, 2048] : Fin 2 → Nat) a + S128x512.size a ≤ S128x2560.size a
  h_S128x512 : 0 < S128x512.numel
  dot_S128x1024_S1024x2048_S128x2048_1_0_0_1_n_n_wf : DotDims.WF S128x1024 S1024x2048 S128x2048 [1] [0] [0] [1] [] []
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .f32 = 32 ∨ (Rect.block (s := S4096x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .bf16 = 32 ∨ (Rect.block (s := S2048x1024) S2048x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S2048x1024.size a
  hwx0_5 : ∀ i : grid0.Coords, EltTy.bits .bf16 = 32 ∨ (Rect.block (s := S2048x1024) S2048x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S2048x1024.size a
  hwx0_6 : ∀ i : grid0.Coords, EltTy.bits .bf16 = 32 ∨ (Rect.block (s := S2048x1024) S2048x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2560.size a ≤ S4096x2560.size a
  hwx0_7 : ∀ i : grid0.Coords, EltTy.bits .f32 = 32 ∨ (Rect.block (s := S4096x2560) S128x2560.size (cc0_transform_7 i) (hinb0_7 i)).WholeWords (EltTy.packing .f32)

variable [Facts₀]

def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2048x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2048x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S128x2560.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2560 : Shape := ⟨2, ![4096, 2560]⟩
abbrev S2048x1024 : Shape := ⟨2, ![2048, 1024]⟩
abbrev S2048x2048 : Shape := ⟨2, ![2048, 2048]⟩
abbrev S6144x1024 : Shape := ⟨2, ![6144, 1024]⟩
abbrev S4096x2048 : Shape := ⟨2, ![4096, 2048]⟩
abbrev S1024x2048 : Shape := ⟨2, ![1024, 2048]⟩
abbrev S1024x6144 : Shape := ⟨2, ![1024, 6144]⟩
abbrev S4096x6144 : Shape := ⟨2, ![4096, 6144]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S2048x1024, .f32⟩
  | .hbm, ⟨3, _⟩ => ⟨S2048x2048, .f32⟩
  | .hbm, ⟨4, _⟩ => ⟨S6144x1024, .f32⟩
  | .hbm, ⟨5, _⟩ => ⟨S4096x2048, .f32⟩
  | .hbm, ⟨6, _⟩ => ⟨S1024x2048, .f32⟩
  | .hbm, ⟨7, _⟩ => ⟨S4096x2048, .f32⟩
  | .hbm, ⟨8, _⟩ => ⟨S2048x2048, .f32⟩
  | .hbm, ⟨9, _⟩ => ⟨S4096x2048, .f32⟩
  | .hbm, ⟨10, _⟩ => ⟨S1024x6144, .f32⟩
  | .hbm, ⟨11, _⟩ => ⟨S4096x6144, .f32⟩
  | .hbm, ⟨12, _⟩ => ⟨S4096x6144, .f32⟩
  | .hbm, ⟨13, _⟩ => ⟨S4096x6144, .f32⟩
  | .hbm, ⟨14, _⟩ => ⟨S_, .f32⟩
  | .hbm, ⟨15, _⟩ => ⟨S4096x6144, .f32⟩
  | .hbm, ⟨16, _⟩ => ⟨S4096x6144, .f32⟩
  | .hbm, ⟨17, _⟩ => ⟨S_, .f32⟩
  | .hbm, ⟨18, _⟩ => ⟨S4096x6144, .f32⟩
  | .hbm, ⟨19, _⟩ => ⟨S4096x6144, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .i1⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .i32⟩
  | .hbm, ⟨43, _⟩ => ⟨S_, .f32⟩
  | .hbm, ⟨44, _⟩ => ⟨S4096x2560, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_call1_v0 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S4096x2560_S4096x2048_0_0 : S4096x2560.Slices ![0, 0] S4096x2048
  transposes_S2048x1024_S1024x2048_1_0 : S2048x1024.Transposes [1, 0] S1024x2048
  transposes_S2048x2048_S2048x2048_1_0 : S2048x2048.Transposes [1, 0] S2048x2048
  transposes_S6144x1024_S1024x6144_1_0 : S6144x1024.Transposes [1, 0] S1024x6144
  bcast_S_S4096x6144 : S_.BroadcastsInDim S4096x6144 (![] : Fin 0 → Fin S4096x6144.rank)
  slices_S4096x6144_S4096x2048_0_0 : S4096x6144.Slices ![0, 0] S4096x2048
  slices_S4096x6144_S4096x2048_0_2048 : S4096x6144.Slices ![0, 2048] S4096x2048
  slices_S4096x6144_S4096x2048_0_4096 : S4096x6144.Slices ![0, 4096] S4096x2048
  bcast_S_S4096x2048 : S_.BroadcastsInDim S4096x2048 (![] : Fin 0 → Fin S4096x2048.rank)
  pads_S4096x2048_S4096x2560_000_05120 : S4096x2048.Pads (![0, 0] : Fin 2 → Nat) ![0, 512] ![0, 0] S4096x2560
  h_S_ : 0 < S_.numel
  dot_S4096x1024_S1024x2048_S4096x2048_1_0_0_1_n_n_wf : DotDims.WF S4096x1024 S1024x2048 S4096x2048 [1] [0] [0] [1] [] []
  dot_S4096x2048_S2048x2048_S4096x2048_1_0_0_1_n_n_wf : DotDims.WF S4096x2048 S2048x2048 S4096x2048 [1] [0] [0] [1] [] []
  dot_S4096x1024_S1024x6144_S4096x6144_1_0_0_1_n_n_wf : DotDims.WF S4096x1024 S1024x6144 S4096x6144 [1] [0] [0] [1] [] []

variable [Facts₀]

def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x1024_S1024x6144_S4096x6144_1_0_0_1_n_n : DotDims S4096x1024 S1024x6144 S4096x6144 where
  lhsContracting := [1]
  rhsContracting := [0]
  lhsNonContracting := [0]
  rhsNonContracting := [1]
  lhsBatch := []
  rhsBatch := []
  wf := dot_S4096x1024_S1024x6144_S4096x6144_1_0_0_1_n_n_wf

class Facts : Prop extends Facts₀ where

variable [Facts]
-- ==== Proof.Block.lean ====
/-
  What the kernel's body leaves in its output block at one grid point.

  The body stores twice into the [128, 2560] output block: the thresholded state, a [128, 2048] vector, at columns
  0 … 2047, and a [128, 512] splat of zero at columns 2048 … 2559. The two rectangles tile the block, so the block's
  contents after the body are one function of the block index (`blockOf`): the first vector on the low columns, the
  second, shifted by 2048, on the high ones. Both stored vectors are functions of the seven loaded blocks only
  (each load reads a whole staging buffer back).
-/
import proofs.«123859_j10806137717145_1_alg».proof.Proof.Gen.KernelIdeal.Value
import Idealize.ShloMosaic.Lib.Pipeline.Value
import Idealize.ShloMosaic.Lib.ValueIdx
import Idealize.ShloMosaic.Lib.Tactic

set_option maxRecDepth 16384

noncomputable section

namespace Cert.KernelIdeal.Block

open Cert.KernelIdeal Cert.KernelIdeal.Gen Idealize.ShloMosaic Idealize.ShloMosaic.TcCoe Idealize.SL.Sem
open Idealize.ShloMosaic.ValueIdx Idealize.ShloMosaic.Tactic

variable {F : FTy → Type} [FloatOps F]

theorem hz : (![0, 0] : Fin 2 → Nat) = fun _ => 0 := funext fun a => by fin_cases a <;> rfl

/-- A block of 2560 columns from its first 2048 columns and its last 512. -/
def blockOf (s : S128x2048.Idx → Elt F .f32) (z : S128x512.Idx → Elt F .f32) : S128x2560.Idx → Elt F .f32 := fun y =>
  if h : (y 1).val < 2048 then s (ix2 (y 0) ⟨(y 1).val, h⟩)
  else z (ix2 (y 0) ⟨(y 1).val - 2048, by have := idx2_lt1 y; omega⟩)

/-- On a low column the block reads its first part at the same coordinates. -/
theorem blockOf_lo (s : S128x2048.Idx → Elt F .f32) (z : S128x512.Idx → Elt F .f32) (y : S128x2560.Idx)
    (x : S128x2048.Idx) (h0 : (y 0).val = (x 0).val) (h1 : (y 1).val = (x 1).val) : blockOf s z y = s x := by
  unfold blockOf
  rw [dif_pos (by rw [h1]; exact idx2_lt1 x)]
  refine congrArg s (funext fun a => Fin.ext ?_)
  match a with
  | ⟨0, _⟩ => exact h0
  | ⟨1, _⟩ => exact h1

/-- On a high column it reads its second part, the column moved back by 2048. -/
theorem blockOf_hi (s : S128x2048.Idx → Elt F .f32) (z : S128x512.Idx → Elt F .f32) (y : S128x2560.Idx)
    (x : S128x512.Idx) (h0 : (y 0).val = (x 0).val) (h1 : (y 1).val = 2048 + (x 1).val) : blockOf s z y = z x := by
  unfold blockOf
  rw [dif_neg (by rw [h1]; omega)]
  refine congrArg z (funext fun a => Fin.ext ?_)
  match a with
  | ⟨0, _⟩ => exact h0
  | ⟨1, _⟩ => show (y 1).val - 2048 = (x 1).val; rw [h1]; omega

/-- The stores the body's run made, last first, over the loaded blocks. -/
theorem pieces_eq (c : Dev nD) (i : grid0.Coords) (arg1 : Memref sig .tc .vmem S128x1024 .f32) (harg1 : arg1.IsWhole) (arg2 : Memref sig .tc .vmem S128x2048 .f32) (harg2 : arg2.IsWhole) (arg3 : Memref sig .tc .vmem S2048x1024 .bf16) (harg3 : arg3.IsWhole) (arg4 : Memref sig .tc .vmem S2048x2048 .bf16) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S128x2560 .f32) (harg8 : arg8.IsWhole)
    (x0 : Vec F S128x1024 .f32) (x1 : Vec F S128x2048 .f32) (x2 : Vec F S2048x1024 .bf16) (x3 : Vec F S2048x2048 .bf16) (x4 : Vec F S2048x1024 .bf16) (x5 : Vec F S2048x1024 .bf16) (x6 : Vec F S2048x1024 .bf16) :
    (kernelRun0_A c i arg1 harg1 arg2 harg2 arg3 harg3 arg4 harg4 arg5 harg5 arg6 harg6 arg7 harg7 arg8 harg8 x0 x1 x2 x3 x4 x5 x6).1
      = [⟨Rect.unit ![0, 2048] ![128, 512] inb_S128x2560_S128x512_0_2048, k0_pay2⟩,
         ⟨Rect.unit ![0, 0] ![128, 2048] inb_S128x2560_S128x2048_0_0, k0_pay1 (k0_pay3 x0 x1 x2 x3 x4 x5 x6)⟩] := by
  unfold kernelRun0_A
  dsimp only
  sl_unfold_words
  simp only [View.readAt_eq_ld, harg1.read_unread, harg2.read_unread, harg3.read_unread, harg4.read_unread,
    harg5.read_unread, harg6.read_unread, harg7.read_unread, View.ld_unit_zero (S := S128x1024) hz,
    View.ld_unit_zero (S := S128x2048) hz, View.ld_unit_zero (S := S2048x1024) hz, View.ld_unit_zero (S := S2048x2048) hz]

/-- The output block after the body: the thresholded state on the low columns, the zero splat on the high ones. -/
theorem out_eq (c : Dev nD) (i : grid0.Coords) (arg1 : Memref sig .tc .vmem S128x1024 .f32) (harg1 : arg1.IsWhole) (arg2 : Memref sig .tc .vmem S128x2048 .f32) (harg2 : arg2.IsWhole) (arg3 : Memref sig .tc .vmem S2048x1024 .bf16) (harg3 : arg3.IsWhole) (arg4 : Memref sig .tc .vmem S2048x2048 .bf16) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S128x2560 .f32) (harg8 : arg8.IsWhole)
    (x0 : Vec F S128x1024 .f32) (x1 : Vec F S128x2048 .f32) (x2 : Vec F S2048x1024 .bf16) (x3 : Vec F S2048x2048 .bf16) (x4 : Vec F S2048x1024 .bf16) (x5 : Vec F S2048x1024 .bf16) (x6 : Vec F S2048x1024 .bf16) :
    out0_A_7 c i arg1 harg1 arg2 harg2 arg3 harg3 arg4 harg4 arg5 harg5 arg6 harg6 arg7 harg7 arg8 harg8 x0 x1 x2 x3 x4 x5 x6 = blockOf (k0_pay1 (k0_pay3 x0 x1 x2 x3 x4 x5 x6)) k0_pay2 := by
  unfold out0_A_7
  funext y
  refine View.read_writes_apply_of_pieces _ _ (blockOf (k0_pay1 (k0_pay3 x0 x1 x2 x3 x4 x5 x6)) k0_pay2) _ ?_ y
    (cover0_A_7 c i arg1 harg1 arg2 harg2 arg3 harg3 arg4 harg4 arg5 harg5 arg6 harg6 arg7 harg7 arg8 harg8 x0 x1 x2 x3 x4 x5 x6 y)
  rw [pieces_eq]
  intro p hp x
  simp only [List.mem_cons, List.not_mem_nil, or_false] at hp
  rcases hp with rfl | rfl
  · exact (blockOf_hi _ _ _ x (by show 0 + 1 * (x 0).val = (x 0).val; omega)
      (by show 2048 + 1 * (x 1).val = 2048 + (x 1).val; omega)).symm
  · exact (blockOf_lo _ _ _ x (by show 0 + 1 * (x 0).val = (x 0).val; omega)
      (by show 0 + 1 * (x 1).val = (x 1).val; omega)).symm

end Cert.KernelIdeal.Block

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibDense.lean ====
/-
  The product of an [M, K] array with the TRANSPOSE of an [N, K] array (a linear layer's x · wᵀ, the weight stored
  output-major), as one whole-array function over the extended reals: entry (r, c) is the sum over k of x (r, k) · w (c, k).
  Two computations are that function, for any extents and any dimension-numbers record contracting the left operand's
  axis 1 against the right operand's axis 0:
    * a block product into the zero accumulator whose operands were first narrowed to bf16 (a change of float format is
      the identity on the extended reals) and whose right operand was transposed;
    * the host's dot_general against the transposed weight.
  With it, a bias row added along the rows and a bias column multiplied along the columns, read at an index.
-/
import Idealize.ShloMosaic.PureOps.Ideal.Laws
import Idealize.ShloMosaic.Lib.ValueIdx
import Idealize.ShloMosaic.Lib.ValueLayout
import Idealize.ShloMosaic.Lib.Pipeline.Value
import proofs.«123859_j10806137717145_1_alg».proof.Proof.LibDotSum

noncomputable section

namespace Cert.Lib

open Idealize.ShloMosaic Idealize.ShloMosaic.ValueIdx

variable {M K N : Nat}

/-- x · wᵀ: entry (r, c) is the sum over k of x (r, k) · w (c, k). -/
def mulT (x : FVec Ideal ⟨2, ![M, K]⟩ .f32) (w : FVec Ideal ⟨2, ![N, K]⟩ .f32) : FVec Ideal ⟨2, ![M, N]⟩ .f32 :=
  fun i => ∑ k : Fin K, x (ix2 (i 0) k) * w (ix2 (i 1) k)

theorem mulT_apply (x : FVec Ideal ⟨2, ![M, K]⟩ .f32) (w : FVec Ideal ⟨2, ![N, K]⟩ .f32) (r : Fin M) (c : Fin N) :
    mulT x w (ix2 r c) = ∑ k : Fin K, x (ix2 r k) * w (ix2 c k) := rfl

/-- Row r of x · wᵀ depends on row r of x only: if two left operands agree on their rows r and r', so do the products. -/
theorem mulT_row_congr {M' : Nat} (x : FVec Ideal ⟨2, ![M, K]⟩ .f32) (x' : FVec Ideal ⟨2, ![M', K]⟩ .f32)
    (w : FVec Ideal ⟨2, ![N, K]⟩ .f32) (r : Fin M) (r' : Fin M') (h : ∀ k : Fin K, x (ix2 r k) = x' (ix2 r' k)) (c : Fin N) :
    mulT x w (ix2 r c) = mulT x' w (ix2 r' c) := by
  rw [mulT_apply, mulT_apply]
  exact Finset.sum_congr rfl fun k _ => by rw [h k]

/-- The block product of the narrowed operands, the right one transposed, into the zero accumulator, is x · wᵀ. -/
theorem matmul_trunc_transpose (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    (hb : FTy.bf16.bits < FTy.f32.bits) (hb' : FTy.bf16.bits < FTy.f32.bits)
    (ht : (⟨2, ![N, K]⟩ : Shape).Transposes [1, 0] ⟨2, ![K, N]⟩) :
    matmul d prec (truncf .bf16 x hb) (transpose ⟨2, ![K, N]⟩ [1, 0] (truncf .bf16 w hb') ht)
        (constant ⟨2, ![M, N]⟩ .f32 0x00000000#32) = mulT x w := by
  funext i
  obtain ⟨r, c, rfl⟩ : ∃ (r : Fin M) (c : Fin N), i = ix2 r c := ⟨i 0, i 1, eq_ix2 i⟩
  rw [matmul_rc_apply d hlc hrc hln hrn hlb hrb, mulT_apply]
  refine Finset.sum_congr rfl fun k _ => ?_
  rw [transpose_ix2_apply]
  rfl

/-- The host's product against the transposed weight is x · wᵀ. -/
theorem dotGeneral_transpose (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    (ht : (⟨2, ![N, K]⟩ : Shape).Transposes [1, 0] ⟨2, ![K, N]⟩) :
    Host.dotGeneral d prec x (transpose ⟨2, ![K, N]⟩ [1, 0] w ht) = mulT x w := by
  funext i
  obtain ⟨r, c, rfl⟩ : ∃ (r : Fin M) (c : Fin N), i = ix2 r c := ⟨i 0, i 1, eq_ix2 i⟩
  rw [dotGeneral_rc_apply d hlc hrc hln hrn hlb hrb, mulT_apply]
  refine Finset.sum_congr rfl fun k _ => ?_
  rw [transpose_ix2_apply]

/-- An [M, 1] column broadcast over N columns reads, at (r, c), the column's entry of row r. -/
theorem broadcastTo_a1_ab_apply {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- An [M] array cast to an [M, 1] column reads, at (r, u), the operand at r, whatever the unit coordinate u. -/
theorem shapeCast_a_a1_apply {α : Type} (x : (⟨1, ![M]⟩ : Shape).Idx → α)
    (h : (⟨1, ![M]⟩ : Shape).ShapeCasts ⟨2, ![M, 1]⟩) (r : Fin M) (u : Fin 1) :
    shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-! ## A linear layer with a bias row, and two of them around a tanh -/

/-- x · wᵀ + b: the bias, a [1, N] row, added along every row. -/
def affine (x : FVec Ideal ⟨2, ![M, K]⟩ .f32) (w : FVec Ideal ⟨2, ![N, K]⟩ .f32) (b : FVec Ideal ⟨2, ![1, N]⟩ .f32) :
    FVec Ideal ⟨2, ![M, N]⟩ .f32 :=
  fun i => mulT x w i + b (ix2 (0 : Fin 1) (i 1))

theorem affine_apply (x : FVec Ideal ⟨2, ![M, K]⟩ .f32) (w : FVec Ideal ⟨2, ![N, K]⟩ .f32) (b : FVec Ideal ⟨2, ![1, N]⟩ .f32)
    (r : Fin M) (c : Fin N) :
    affine x w b (ix2 r c) = (∑ k : Fin K, x (ix2 r k) * w (ix2 c k)) + b (ix2 (0 : Fin 1) c) := rfl

/-- Row r of a linear layer's output depends on row r of its input only. -/
theorem affine_row_congr {M' : Nat} (x : FVec Ideal ⟨2, ![M, K]⟩ .f32) (x' : FVec Ideal ⟨2, ![M', K]⟩ .f32)
    (w : FVec Ideal ⟨2, ![N, K]⟩ .f32) (b : FVec Ideal ⟨2, ![1, N]⟩ .f32) (r : Fin M) (r' : Fin M')
    (h : ∀ k : Fin K, x (ix2 r k) = x' (ix2 r' k)) (c : Fin N) :
    affine x w b (ix2 r c) = affine x' w b (ix2 r' c) := by
  rw [affine_apply, affine_apply]
  exact congrArg (· + b (ix2 (0 : Fin 1) c)) (Finset.sum_congr rfl fun k _ => by rw [h k])

/-- tanh of every entry. -/
def tanhA {s : Shape} (y : FVec Ideal s .f32) : FVec Ideal s .f32 := fun i => Ideal.tanh (y i)

theorem tanhA_apply {s : Shape} (y : FVec Ideal s .f32) (i : s.Idx) : tanhA y i = Ideal.tanh (y i) := rfl

/-- The device's vector tanh and the host's are that map on the extended reals. -/
theorem tanh_eq_tanhA {s : Shape} (y : FVec Ideal s .f32) : tanh y = tanhA y := rfl
theorem hostTanh_eq_tanhA {s : Shape} (y : FVec Ideal s .f32) : Host.tanh y = tanhA y := rfl

/-- A two-layer network (layer, tanh, layer) is row-local: its output's row r depends on its input's row r only. -/
theorem affine_tanh_affine_row_congr {M' H : Nat} (x : FVec Ideal ⟨2, ![M, K]⟩ .f32) (x' : FVec Ideal ⟨2, ![M', K]⟩ .f32)
    (w₁ : FVec Ideal ⟨2, ![H, K]⟩ .f32) (b₁ : FVec Ideal ⟨2, ![1, H]⟩ .f32)
    (w₂ : FVec Ideal ⟨2, ![N, H]⟩ .f32) (b₂ : FVec Ideal ⟨2, ![1, N]⟩ .f32) (r : Fin M) (r' : Fin M')
    (h : ∀ k : Fin K, x (ix2 r k) = x' (ix2 r' k)) (c : Fin N) :
    affine (tanhA (affine x w₁ b₁)) w₂ b₂ (ix2 r c) = affine (tanhA (affine x' w₁ b₁)) w₂ b₂ (ix2 r' c) :=
  affine_row_congr _ _ w₂ b₂ r r' (fun k => congrArg Ideal.tanh (affine_row_congr x x' w₁ b₁ r r' h k)) c

/-- The device's form of the layer: the block product of the narrowed operands into the zero accumulator, plus the bias
    row broadcast over the rows. -/
theorem addf_matmul_bias (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨2, ![1, N]⟩ .f32)
    (hb : FTy.bf16.bits < FTy.f32.bits) (hb' : FTy.bf16.bits < FTy.f32.bits)
    (ht : (⟨2, ![N, K]⟩ : Shape).Transposes [1, 0] ⟨2, ![K, N]⟩)
    (hbc : (⟨2, ![1, N]⟩ : Shape).Broadcasts ⟨2, ![M, N]⟩) :
    addf (matmul d prec (truncf .bf16 x hb) (transpose ⟨2, ![K, N]⟩ [1, 0] (truncf .bf16 w hb') ht)
        (constant ⟨2, ![M, N]⟩ .f32 0x00000000#32)) (broadcastTo ⟨2, ![M, N]⟩ b hbc) = affine x w b := by
  rw [matmul_trunc_transpose d hlc hrc hln hrn hlb hrb]
  funext i
  obtain ⟨r, c, rfl⟩ : ∃ (r : Fin M) (c : Fin N), i = ix2 r c := ⟨i 0, i 1, eq_ix2 i⟩
  rw [addf_apply, broadcastTo_1b_ab_apply]
  rfl

/-- An [N] vector laid along the columns of an [M, N] array through a [1, N] row reads, at (r, c), the vector at c. -/
theorem broadcastInDim_row_apply {α : Type} (h₁ : (⟨1, ![N]⟩ : Shape).BroadcastsInDim ⟨2, ![1, N]⟩ ![1])
    (h₂ : (⟨2, ![1, N]⟩ : Shape).BroadcastsInDim ⟨2, ![M, N]⟩ ![0, 1]) (v : (⟨1, ![N]⟩ : Shape).Idx → α)
    (r : Fin M) (c : Fin N) :
    broadcastInDim ⟨2, ![M, N]⟩ ![0, 1] h₂ (broadcastInDim ⟨2, ![1, N]⟩ ![1] h₁ v) (ix2 r c) = v (ix1 c) := by
  refine (broadcastInDim_apply ![0, 1] h₂ _ (ix2 r c) (ix2 (0 : Fin 1) c) fun a => ?_).trans
    (broadcastInDim_apply ![1] h₁ v (ix2 (0 : Fin 1) c) (ix1 c) fun a => ?_)
  · match a with
    | ⟨0, _⟩ => rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- An [M] vector laid along the rows of an [M, N] array through an [M, 1] column reads, at (r, c), the vector at r. -/
theorem broadcastInDim_col_apply {α : Type} (h₁ : (⟨1, ![M]⟩ : Shape).BroadcastsInDim ⟨2, ![M, 1]⟩ ![0])
    (h₂ : (⟨2, ![M, 1]⟩ : Shape).BroadcastsInDim ⟨2, ![M, N]⟩ ![0, 1]) (v : (⟨1, ![M]⟩ : Shape).Idx → α)
    (r : Fin M) (c : Fin N) :
    broadcastInDim ⟨2, ![M, N]⟩ ![0, 1] h₂ (broadcastInDim ⟨2, ![M, 1]⟩ ![0] h₁ v) (ix2 r c) = v (ix1 r) := by
  refine (broadcastInDim_apply ![0, 1] h₂ _ (ix2 r c) (ix2 r (0 : Fin 1)) fun a => ?_).trans
    (broadcastInDim_apply ![0] h₁ v (ix2 r (0 : Fin 1)) (ix1 r) fun a => ?_)
  · match a with
    | ⟨0, _⟩ =>
      show r.val = if M = 1 then 0 else r.val
      split
      · have := r.isLt; omega
      · rfl
    | ⟨1, _⟩ => rfl
  · match a with
    | ⟨0, _⟩ =>
      show r.val = if M = 1 then 0 else r.val
      split
      · have := r.isLt; omega
      · rfl

/-- The host's form of the layer: the product against the transposed weight, plus the [N] bias laid along the columns;
    the bias row is the [N] vector cast to [1, N]. -/
theorem addf_dotGeneral_bias (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨1, ![N]⟩ .f32)
    (ht : (⟨2, ![N, K]⟩ : Shape).Transposes [1, 0] ⟨2, ![K, N]⟩)
    (h₁ : (⟨1, ![N]⟩ : Shape).BroadcastsInDim ⟨2, ![1, N]⟩ ![1])
    (h₂ : (⟨2, ![1, N]⟩ : Shape).BroadcastsInDim ⟨2, ![M, N]⟩ ![0, 1])
    (hc : (⟨1, ![N]⟩ : Shape).ShapeCasts ⟨2, ![1, N]⟩) :
    addf (Host.dotGeneral d prec x (transpose ⟨2, ![K, N]⟩ [1, 0] w ht))
        (broadcastInDim ⟨2, ![M, N]⟩ ![0, 1] h₂ (broadcastInDim ⟨2, ![1, N]⟩ ![1] h₁ b))
      = affine x w (shapeCast ⟨2, ![1, N]⟩ b hc) := by
  rw [dotGeneral_transpose d hlc hrc hln hrn hlb hrb]
  funext i
  obtain ⟨r, c, rfl⟩ : ∃ (r : Fin M) (c : Fin N), i = ix2 r c := ⟨i 0, i 1, eq_ix2 i⟩
  rw [addf_apply, broadcastInDim_row_apply, affine_apply, shapeCast_a_1a_apply]
  rfl

end Cert.Lib

end
-- ==== Proof.LibDenseRows.lean ====
/-
  Two facts about x · wᵀ over the extended reals (entry (r, c) the sum over k of x (r, k) · w (c, k)), for any extents.
    * The entry depends on row r of x and row c of w only: it may be computed from any two arrays that hold those rows,
      whatever their other rows and however many rows they have (a block of rows of x; a run of rows cut out of a
      stacked w).
    * A block product into the zero accumulator whose left operand is narrowed to bf16 on the spot and whose right
      operand is a weight already held in bf16, passed through a cast to its own shape and transposed, is x · wᵀ:
      a change of float format is the identity on the extended reals.
-/
import Idealize.ShloMosaic.PureOps.Ideal.Laws
import Idealize.ShloMosaic.Lib.ValueIdx
import Idealize.ShloMosaic.Lib.Pipeline.Value
import proofs.«123859_j10806137717145_1_alg».proof.Proof.LibDense

noncomputable section

namespace Cert.Lib

open Idealize.ShloMosaic Idealize.ShloMosaic.ValueIdx

/-- x · wᵀ at (r, c) depends on row r of x and row c of w only, whatever the two arrays' other rows. -/
theorem mulT_congr {M M' N N' K : Nat} (x : FVec Ideal ⟨2, ![M, K]⟩ .f32) (x' : FVec Ideal ⟨2, ![M', K]⟩ .f32)
    (w : FVec Ideal ⟨2, ![N, K]⟩ .f32) (w' : FVec Ideal ⟨2, ![N', K]⟩ .f32) (r : Fin M) (r' : Fin M') (c : Fin N) (c' : Fin N')
    (hx : ∀ k : Fin K, x (ix2 r k) = x' (ix2 r' k)) (hw : ∀ k : Fin K, w (ix2 c k) = w' (ix2 c' k)) :
    mulT x w (ix2 r c) = mulT x' w' (ix2 r' c') := by
  rw [mulT_apply, mulT_apply]
  exact Finset.sum_congr rfl fun k _ => by rw [hx k, hw k]

/-- A block product of a narrowed operand with a transposed bf16 weight, into the zero accumulator, is x · wᵀ. -/
theorem matmul_bf16_transpose {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .bf16)
    (hb : FTy.bf16.bits < FTy.f32.bits) (hs : (⟨2, ![N, K]⟩ : Shape).ShapeCasts ⟨2, ![N, K]⟩)
    (ht : (⟨2, ![N, K]⟩ : Shape).Transposes [1, 0] ⟨2, ![K, N]⟩) :
    matmul d prec (truncf .bf16 x hb) (transpose ⟨2, ![K, N]⟩ [1, 0] (shapeCast ⟨2, ![N, K]⟩ w hs) ht)
        (constant ⟨2, ![M, N]⟩ .f32 0x00000000#32) = mulT x w := by
  rw [shapeCast_self]
  exact matmul_trunc_transpose d hlc hrc hln hrn hlb hrb prec x w hb hb ht

end Cert.Lib

end
-- ==== Proof.Reservoir.lean ====
/-
  One step of a gated, leaky reservoir over the extended reals, entry by entry.

  For a batch row b and a reservoir unit j < 2048, with x the input array, p the previous state:
    a   = Σₖ x(b,k) · W_in(j,k)          (k < 1024)
    r   = Σₖ p(b,k) · W_res(j,k)         (k < 2048: only the first 2048 columns of p are active)
    gᵢ  = σ(Σₖ x(b,k) · W_g(j,k)),  g_f = σ(Σₖ x(b,k) · W_g(2048 + j,k)),  gₒ = σ(Σₖ x(b,k) · W_g(4096 + j,k))
    s   = gₒ · (c₉ · (g_f · p(b,j)) + c₁ · tanh (gᵢ · (a + r)))
  and the entry is s − ½ where s > ½, and s elsewhere. Columns 2048 … 2559 of the new state are 0.
  σ is the logistic function 1 / (1 + e⁻ᶻ) with its limits at the infinities; c₉, c₁ and ½ are the f32 words both
  programs spell for 0.9, 0.1 and 0.5, kept as words: they are never evaluated.

  Every entry depends on one row of x, one row of p and three rows of W_g, one of W_in and one of W_res only
  (`entry_congr`): that is what lets a computation on a block of rows, with the weights prepared in pieces, be
  compared with the computation on the whole arrays.
-/
import Idealize.ShloMosaic.PureOps.Ideal
import Idealize.ShloMosaic.PureOps.Ideal.Laws
import Idealize.ShloMosaic.Lib.ValueIdx
import Idealize.ShloMosaic.Lib.ValueLayout
import proofs.«123859_j10806137717145_1_alg».proof.Proof.LibDense
import proofs.«123859_j10806137717145_1_alg».proof.Proof.LibDenseRows

noncomputable section

namespace Cert.Reservoir

open Idealize.ShloMosaic Idealize.ShloMosaic.ValueIdx Cert.Lib

/-- The state before the threshold, from the three gates, the two pre-activations and the previous state's entry:
    gₒ · (c₉ · (g_f · p) + c₁ · tanh (gᵢ · (a + r))). -/
def leak (gi gf go a r p : EReal) : EReal :=
  go * (Ideal.ofBits .f32 0x3F666666#32 * (gf * p) + Ideal.ofBits .f32 0x3DCCCCCD#32 * Ideal.tanh (gi * (a + r)))

/-- The soft reset: s − ½ where s > ½, else s. -/
def fire (s : EReal) : EReal :=
  Scalar.select (FloatOps.cmpf (F := Ideal) (φ := .f32) .ogt s (Ideal.ofBits .f32 0x3F000000#32))
    (s - Ideal.ofBits .f32 0x3F000000#32) s

/-- One entry from its six ingredients. -/
def cell (zi zf zo a r p : EReal) : EReal :=
  fire (leak (Ideal.logistic zi) (Ideal.logistic zf) (Ideal.logistic zo) a r p)

section Arrays

variable (X : FVec Ideal ⟨2, ![4096, 1024]⟩ .f32) (P : FVec Ideal ⟨2, ![4096, 2560]⟩ .f32)
  (Win : FVec Ideal ⟨2, ![2048, 1024]⟩ .f32) (Wres : FVec Ideal ⟨2, ![2048, 2048]⟩ .f32)
  (Wg : FVec Ideal ⟨2, ![6144, 1024]⟩ .f32)

/-- The previous state's active columns, the first 2048. -/
def active : FVec Ideal ⟨2, ![4096, 2048]⟩ .f32 :=
  fun i => P (ix2 (i 0) ⟨(i 1).val, Nat.lt_trans (idx2_lt1 i) (by norm_num)⟩)

theorem active_apply (b : Fin 4096) (k : Fin 2048) :
    active P (ix2 b k) = P (ix2 b ⟨k.val, Nat.lt_trans k.isLt (by norm_num)⟩) := rfl

/-- Cutting the previous state to its first 2048 columns gives the active part. -/
theorem slice_eq_active (h : (⟨2, ![4096, 2560]⟩ : Shape).Slices ![0, 0] ⟨2, ![4096, 2048]⟩) :
    extractStridedSlice ⟨2, ![4096, 2048]⟩ ![0, 0] P h = active P := by
  funext i
  obtain ⟨b, k, rfl⟩ : ∃ (b : Fin 4096) (k : Fin 2048), i = ix2 b k := ⟨i 0, i 1, eq_ix2 i⟩
  rw [active_apply]
  exact slice2_axis1_apply 0 P h b k _ (Nat.zero_add _).symm

/-- Row `o + j` of the stacked gate weight, for the gate whose rows start at `o` (0, 2048 or 4096). -/
def gateRow (o : Nat) (ho : o + 2048 ≤ 6144) (j : Fin 2048) : Fin 6144 := ⟨o + j.val, by have := j.isLt; omega⟩

/-- The 2048 rows of the stacked gate weight from row `o` on, read at (j, k): row `o + j` of the stack. -/
theorem slice_gate_apply (o : Nat) (ho : o + 2048 ≤ 6144) (h : (⟨2, ![6144, 1024]⟩ : Shape).Slices ![o, 0] ⟨2, ![2048, 1024]⟩)
    (j : Fin 2048) (k : Fin 1024) :
    extractStridedSlice ⟨2, ![2048, 1024]⟩ ![o, 0] Wg h (ix2 j k) = Wg (ix2 (gateRow o ho j) k) :=
  slice2_axis0_apply o Wg h j k _ rfl

/-- The entry of row b, unit j. -/
def entry (b : Fin 4096) (j : Fin 2048) : EReal :=
  cell (mulT X Wg (ix2 b (gateRow 0 (by norm_num) j))) (mulT X Wg (ix2 b (gateRow 2048 (by norm_num) j)))
    (mulT X Wg (ix2 b (gateRow 4096 (by norm_num) j)))
    (mulT X Win (ix2 b j)) (mulT (active P) Wres (ix2 b j)) (active P (ix2 b j))

/-- The new state: the entries on the columns below 2048, zero on the 512 columns after them. -/
def next : FVec Ideal ⟨2, ![4096, 2560]⟩ .f32 := fun i =>
  if h : (i 1).val < 2048 then entry X P Win Wres Wg (i 0) ⟨(i 1).val, h⟩ else 0

theorem next_apply_lt (b : Fin 4096) (q : Fin 2560) (h : q.val < 2048) :
    next X P Win Wres Wg (ix2 b q) = entry X P Win Wres Wg b ⟨q.val, h⟩ := dif_pos h

theorem next_apply_ge (b : Fin 4096) (q : Fin 2560) (h : ¬q.val < 2048) :
    next X P Win Wres Wg (ix2 b q) = 0 := dif_neg h

end Arrays

end Cert.Reservoir

end
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.LibConsts.lean ====
/- The float constants the two programs spell, as the extended reals their patterns denote. An f32 pattern with sign
   `s`, biased exponent `E` (neither `0` nor `255`) and fraction `T` denotes `(-1)^s (2^23 + T) 2^(E - 150)`. One module
   states them all, so that no other module unfolds the reading of a bit pattern. -/
import Idealize.ShloMosaic.PureOps.Ideal
import proofs.«123859_j10806137717145_1_alg».proof.Proof.LibFinite

namespace Cert.LibConsts

open Idealize.ShloMosaic
open Cert.LibFinite

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `1.0` as a real coercion. -/
theorem ofBits_one_coe : Ideal.ofBits .f32 0x3F800000#32 = ((1 : ℝ) : EReal) := by
  rw [ofBits_one, EReal.coe_one]

/-- `50000.0` (exponent `142`, fraction `0x435000`) denotes the real `50000`. -/
theorem ofBits_50000 : Ideal.ofBits .f32 0x47435000#32 = ((50000 : ℝ) : EReal) := by
  simp [Ideal.ofBits, Ideal.ieee, -EReal.coe_mul]; norm_num

/-- The batch-norm epsilon, the f32 nearest `1e-5` (exponent `110`, fraction `0x27C5AC`): `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The batch-norm bias, the f32 nearest `1e-4` (exponent `113`, fraction `0x51B717`): `13743895 / 2^37`. -/
theorem ofBits_bias : Ideal.ofBits .f32 0x38D1B717#32 = ((13743895 / 2 ^ 37 : ℝ) : EReal) := by
  simp [Ideal.ofBits, Ideal.ieee, -EReal.coe_mul]; norm_num

theorem isFin_zero_lit : IsFin (Ideal.ofBits .f32 0x00000000#32) := by rw [ofBits_zero]; exact isFin_zero
theorem isFin_one_lit : IsFin (Ideal.ofBits .f32 0x3F800000#32) := by rw [ofBits_one]; exact isFin_one
theorem isFin_50000 : IsFin (Ideal.ofBits .f32 0x47435000#32) := by rw [ofBits_50000]; exact isFin_coe _
theorem isFin_eps : IsFin (Ideal.ofBits .f32 0x3727C5AC#32) := by rw [ofBits_eps]; exact isFin_coe _
theorem isFin_bias : IsFin (Ideal.ofBits .f32 0x38D1B717#32) := by rw [ofBits_bias]; exact isFin_coe _

/-- The epsilon is positive. -/
theorem eps_pos : 0 < Ideal.ofBits .f32 0x3727C5AC#32 := by
  rw [ofBits_eps]; exact EReal.coe_pos.mpr (by norm_num)

/-- The divisor `50000.0` is not zero. -/
theorem ofBits_50000_ne_zero : Ideal.ofBits .f32 0x47435000#32 ≠ 0 := by
  rw [ofBits_50000]; exact fun h => by
    have : (50000 : ℝ) = 0 := by exact_mod_cast h
    norm_num at this

end Cert.LibConsts
-- ==== Proof.BlockValue.lean ====
/-
  The kernel's stored vectors at an index, over the extended reals.

  At a row p of the block and a unit q, the state the body stores is the reservoir cell of
    the three gate products  x_blk · w_iᵀ, x_blk · w_fᵀ, x_blk · w_oᵀ  at (p, q),
    the two pre-activations  x_blk · w_inᵀ  and  p_blk · w_resᵀ  at (p, q), and  p_blk (p, q),
  thresholded: narrowing an operand to bf16 is the identity on the extended reals, a product into the zero accumulator
  against a transposed weight is x · wᵀ, and the remaining operations act entry by entry. The second stored vector is 0.
  So if the blocks' rows are rows of whole arrays, the stored entry is the entry of `Cert.Reservoir.entry`.
-/
import proofs.«123859_j10806137717145_1_alg».proof.Proof.Gen.KernelIdeal.Skeleton
import proofs.«123859_j10806137717145_1_alg».proof.Proof.Reservoir
import proofs.«123859_j10806137717145_1_alg».proof.Proof.LibConsts
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.TcCoe
open Idealize.ShloMosaic.ValueIdx Cert.Lib Cert.Reservoir

/-- The state the body computes, at (p, q): the cell of the five block products and the previous state's entry. -/
theorem pay3_apply (x0 : Vec Ideal S128x1024 .f32) (x1 : Vec Ideal S128x2048 .f32) (x2 : Vec Ideal S2048x1024 .bf16)
    (x3 : Vec Ideal S2048x2048 .bf16) (x4 x5 x6 : Vec Ideal S2048x1024 .bf16) (p : Fin 128) (q : Fin 2048) :
    k0_pay3 (F := Ideal) x0 x1 x2 x3 x4 x5 x6 (ix2 p q)
      = leak (Ideal.logistic (mulT x0 x4 (ix2 p q))) (Ideal.logistic (mulT x0 x5 (ix2 p q)))
          (Ideal.logistic (mulT x0 x6 (ix2 p q))) (mulT x0 x2 (ix2 p q)) (mulT x1 x3 (ix2 p q)) (x1 (ix2 p q)) := by
  unfold k0_pay3
  dsimp only
  rw [shapeCast_self x1,
    matmul_bf16_transpose (M := 128) (K := 1024) (N := 2048) _ rfl rfl rfl rfl rfl rfl none x0 x2,
    matmul_bf16_transpose (M := 128) (K := 1024) (N := 2048) _ rfl rfl rfl rfl rfl rfl none x0 x4,
    matmul_bf16_transpose (M := 128) (K := 1024) (N := 2048) _ rfl rfl rfl rfl rfl rfl none x0 x5,
    matmul_bf16_transpose (M := 128) (K := 1024) (N := 2048) _ rfl rfl rfl rfl rfl rfl none x0 x6,
    matmul_bf16_transpose (M := 128) (K := 2048) (N := 2048) _ rfl rfl rfl rfl rfl rfl none x1 x3]
  rfl

/-- The thresholded state at an index is the soft reset of the state there. -/
theorem pay1_apply (v : FVec Ideal S128x2048 .f32) (i : S128x2048.Idx) : k0_pay1 (F := Ideal) v i = fire (v i) := rfl

/-- The second stored vector is zero everywhere. -/
theorem pay2_apply (i : S128x512.Idx) : k0_pay2 (F := Ideal) i = 0 := Cert.LibConsts.ofBits_zero

/-- If the blocks' rows are rows of the whole arrays, the stored entry at (p, q) is the reservoir's entry (b, q). -/
theorem stored_entry (x0 : Vec Ideal S128x1024 .f32) (x1 : Vec Ideal S128x2048 .f32) (x2 : Vec Ideal S2048x1024 .bf16)
    (x3 : Vec Ideal S2048x2048 .bf16) (x4 x5 x6 : Vec Ideal S2048x1024 .bf16)
    (X : FVec Ideal ⟨2, ![4096, 1024]⟩ .f32) (P : FVec Ideal ⟨2, ![4096, 2560]⟩ .f32)
    (Win : FVec Ideal ⟨2, ![2048, 1024]⟩ .f32) (Wres : FVec Ideal ⟨2, ![2048, 2048]⟩ .f32)
    (Wg : FVec Ideal ⟨2, ![6144, 1024]⟩ .f32) (b : Fin 4096) (p : Fin 128) (q : Fin 2048)
    (h0 : ∀ k : Fin 1024, x0 (ix2 p k) = X (ix2 b k))
    (h1 : ∀ k : Fin 2048, x1 (ix2 p k) = active P (ix2 b k))
    (h2 : ∀ k : Fin 1024, x2 (ix2 q k) = Win (ix2 q k))
    (h3 : ∀ k : Fin 2048, x3 (ix2 q k) = Wres (ix2 q k))
    (h4 : ∀ k : Fin 1024, x4 (ix2 q k) = Wg (ix2 (gateRow 0 (by norm_num) q) k))
    (h5 : ∀ k : Fin 1024, x5 (ix2 q k) = Wg (ix2 (gateRow 2048 (by norm_num) q) k))
    (h6 : ∀ k : Fin 1024, x6 (ix2 q k) = Wg (ix2 (gateRow 4096 (by norm_num) q) k)) :
    k0_pay1 (F := Ideal) (k0_pay3 x0 x1 x2 x3 x4 x5 x6) (ix2 p q) = entry X P Win Wres Wg b q := by
  rw [pay1_apply, pay3_apply,
    mulT_congr x0 X x4 Wg p b q (gateRow 0 (by norm_num) q) h0 h4,
    mulT_congr x0 X x5 Wg p b q (gateRow 2048 (by norm_num) q) h0 h5,
    mulT_congr x0 X x6 Wg p b q (gateRow 4096 (by norm_num) q) h0 h6,
    mulT_congr x0 X x2 Win p b q q h0 h2,
    mulT_congr x1 (active P) x3 Wres p b q q h1 h3, h1 q]
  rfl

end Cert.KernelIdeal.BlockValue

end
-- ==== Proof.Final.lean ====
/-
  The kernel's result array after the run is the reservoir step of the argument arrays.

  At grid point t the body is called with rows 128 t … 128 t + 127 of the input array and of the previous state's
  active columns, and with the five weight blocks whole. The weights the region finds were prepared before it: the
  input and recurrent weights narrowed to bf16, which changes nothing on the extended reals, and the stacked gate weight
  cut into its three runs of 2048 rows and narrowed. So row p of each row block is row 128 t + p of its array, row q of
  each gate block is row q, 2048 + q, 4096 + q of the stack, and what point t writes back is block t of the new state
  (`flushed_eq`). The 32 blocks of 128 rows cover the [4096, 2560] array, row r lying in block r / 128.
-/
import proofs.«123859_j10806137717145_1_alg».proof.Proof.Gen.KernelIdeal.Value
import proofs.«123859_j10806137717145_1_alg».proof.Proof.Block
import proofs.«123859_j10806137717145_1_alg».proof.Proof.BlockValue
import proofs.«123859_j10806137717145_1_alg».proof.Proof.Reservoir
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Lib Cert.Reservoir Cert.KernelIdeal.Block Cert.KernelIdeal.BlockValue

variable (m : (ℓ : Loc nD τ sig) → Buf (Elt Ideal) ℓ) (ρ : Dev nD → PrngReg)

/-- The new state of the argument arrays on core `c`. -/
abbrev nextOf (c : Dev nD) : FVec Ideal ⟨2, ![4096, 2560]⟩ .f32 :=
  next (m ((c : Thread nD τ).loc main_arg0)) (m ((c : Thread nD τ).loc main_arg1)) (m ((c : Thread nD τ).loc main_arg2)) (m ((c : Thread nD τ).loc main_arg3)) (m ((c : Thread nD τ).loc main_arg4))

/-! ## The arrays the region finds -/

theorem V_v0 (c : Dev nD) : (V m c main_v0 : S4096x2048.Idx → Elt Ideal .f32) = active (m ((c : Thread nD τ).loc main_arg1)) := by
  have e : (V m c main_v0 : S4096x2048.Idx → Elt Ideal .f32)
      = extractStridedSlice S4096x2048 ![0, 0] (m ((c : Thread nD τ).loc main_arg1)) slices_S4096x2560_S4096x2048_0_0 := by
    dsimp only [Gen.V, Gen.hostOps0]; after_results <;> rfl
  rw [e]; exact slice_eq_active _ _

theorem V_v4 (c : Dev nD) (i : S2048x1024.Idx) : (V m c main_v4 : S2048x1024.Idx → Elt Ideal .bf16) i = (m ((c : Thread nD τ).loc main_arg2)) i := by
  have e : (V m c main_v4 : S2048x1024.Idx → Elt Ideal .bf16) = truncf (F := Ideal) (s := S2048x1024) (φ := .f32) .bf16 (m ((c : Thread nD τ).loc main_arg2)) bitsLt_bf16_f32 := by
    dsimp only [Gen.V, Gen.hostOps0]; after_results <;> rfl
  rw [e]; rfl

theorem V_v5 (c : Dev nD) (i : S2048x2048.Idx) : (V m c main_v5 : S2048x2048.Idx → Elt Ideal .bf16) i = (m ((c : Thread nD τ).loc main_arg3)) i := by
  have e : (V m c main_v5 : S2048x2048.Idx → Elt Ideal .bf16) = truncf (F := Ideal) (s := S2048x2048) (φ := .f32) .bf16 (m ((c : Thread nD τ).loc main_arg3)) bitsLt_bf16_f32 := by
    dsimp only [Gen.V, Gen.hostOps0]; after_results <;> rfl
  rw [e]; rfl

theorem V_v6 (c : Dev nD) (q : Fin 2048) (k : Fin 1024) :
    (V m c main_v6 : S2048x1024.Idx → Elt Ideal .bf16) (ix2 q k) = (m ((c : Thread nD τ).loc main_arg4)) (ix2 (gateRow 0 (by norm_num) q) k) := by
  have e : (V m c main_v6 : S2048x1024.Idx → Elt Ideal .bf16)
      = truncf (F := Ideal) (s := S2048x1024) (φ := .f32) .bf16 (extractStridedSlice S2048x1024 ![0, 0] (m ((c : Thread nD τ).loc main_arg4)) slices_S6144x1024_S2048x1024_0_0) bitsLt_bf16_f32 := by
    dsimp only [Gen.V, Gen.hostOps0]; after_results <;> rfl
  rw [e]
  show extractStridedSlice S2048x1024 ![0, 0] (m ((c : Thread nD τ).loc main_arg4)) slices_S6144x1024_S2048x1024_0_0 (ix2 q k) = _
  exact slice_gate_apply (m ((c : Thread nD τ).loc main_arg4)) 0 (by norm_num) slices_S6144x1024_S2048x1024_0_0 q k

theorem V_v7 (c : Dev nD) (q : Fin 2048) (k : Fin 1024) :
    (V m c main_v7 : S2048x1024.Idx → Elt Ideal .bf16) (ix2 q k) = (m ((c : Thread nD τ).loc main_arg4)) (ix2 (gateRow 2048 (by norm_num) q) k) := by
  have e : (V m c main_v7 : S2048x1024.Idx → Elt Ideal .bf16)
      = truncf (F := Ideal) (s := S2048x1024) (φ := .f32) .bf16 (extractStridedSlice S2048x1024 ![2048, 0] (m ((c : Thread nD τ).loc main_arg4)) slices_S6144x1024_S2048x1024_2048_0) bitsLt_bf16_f32 := by
    dsimp only [Gen.V, Gen.hostOps0]; after_results <;> rfl
  rw [e]
  show extractStridedSlice S2048x1024 ![2048, 0] (m ((c : Thread nD τ).loc main_arg4)) slices_S6144x1024_S2048x1024_2048_0 (ix2 q k) = _
  exact slice_gate_apply (m ((c : Thread nD τ).loc main_arg4)) 2048 (by norm_num) slices_S6144x1024_S2048x1024_2048_0 q k

theorem V_v8 (c : Dev nD) (q : Fin 2048) (k : Fin 1024) :
    (V m c main_v8 : S2048x1024.Idx → Elt Ideal .bf16) (ix2 q k) = (m ((c : Thread nD τ).loc main_arg4)) (ix2 (gateRow 4096 (by norm_num) q) k) := by
  have e : (V m c main_v8 : S2048x1024.Idx → Elt Ideal .bf16)
      = truncf (F := Ideal) (s := S2048x1024) (φ := .f32) .bf16 (extractStridedSlice S2048x1024 ![4096, 0] (m ((c : Thread nD τ).loc main_arg4)) slices_S6144x1024_S2048x1024_4096_0) bitsLt_bf16_f32 := by
    dsimp only [Gen.V, Gen.hostOps0]; after_results <;> rfl
  rw [e]
  show extractStridedSlice S2048x1024 ![4096, 0] (m ((c : Thread nD τ).loc main_arg4)) slices_S6144x1024_S2048x1024_4096_0 (ix2 q k) = _
  exact slice_gate_apply (m ((c : Thread nD τ).loc main_arg4)) 4096 (by norm_num) slices_S6144x1024_S2048x1024_4096_0 q k

/-! ## The blocks at a grid point -/

/-- The printed index maps over the 32 points: the two row-blocked inputs and the output move down one block of rows
    per point; the five weights stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of the input block at point t is row 128 t + p of the input array. -/
theorem blk0 (c : Dev nD) (t : Fin cfg0.N) (p : Fin 128) (k : Fin 1024) (b : Fin 4096) (hb : b.val = 128 * t.val + p.val) :
    (iblk m c 0 t : S128x1024.Idx → Elt Ideal .f32) (ix2 p k) = (m ((c : Thread nD τ).loc main_arg0)) (ix2 b k) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 128 + 1 * p.val = b.val; rw [e0, hb]; omega
  | ⟨1, _⟩ => show win0_0.index t (1 : Fin 2) * 1024 + 1 * k.val = k.val; rw [e1]; omega

/-- Row p of the previous state's block at point t is row 128 t + p of its active part. -/
theorem blk1 (c : Dev nD) (t : Fin cfg0.N) (p : Fin 128) (k : Fin 2048) (b : Fin 4096) (hb : b.val = 128 * t.val + p.val) :
    (iblk m c 1 t : S128x2048.Idx → Elt Ideal .f32) (ix2 p k) = active (m ((c : Thread nD τ).loc main_arg1)) (ix2 b k) := by
  obtain ⟨-, -, e0, e1, -⟩ := idx_facts t
  unfold iblk
  rw [View.read_apply]
  show V m c main_v0 _ = _
  rw [V_v0]
  refine congrArg (active (m ((c : Thread nD τ).loc main_arg1))) (funext fun a => Fin.ext ?_)
  match a with
  | ⟨0, _⟩ => show win0_1.index t (0 : Fin 2) * 128 + 1 * p.val = b.val; rw [e0, hb]; omega
  | ⟨1, _⟩ => show win0_1.index t (1 : Fin 2) * 2048 + 1 * k.val = k.val; rw [e1]; omega

/-- A weight block is its whole array: block index (0, 0), the block's extents the array's. -/
theorem blk2 (c : Dev nD) (t : Fin cfg0.N) (q : Fin 2048) (k : Fin 1024) :
    (iblk m c 2 t : S2048x1024.Idx → Elt Ideal .bf16) (ix2 q k) = (m ((c : Thread nD τ).loc main_arg2)) (ix2 q k) := by
  obtain ⟨-, -, -, -, e0, e1, -⟩ := idx_facts t
  unfold iblk
  rw [View.read_apply]
  show V m c main_v4 _ = _
  rw [V_v4]
  refine congrArg (m ((c : Thread nD τ).loc main_arg2)) (funext fun a => Fin.ext ?_)
  match a with
  | ⟨0, _⟩ => show win0_2.index t (0 : Fin 2) * 2048 + 1 * q.val = q.val; rw [e0]; omega
  | ⟨1, _⟩ => show win0_2.index t (1 : Fin 2) * 1024 + 1 * k.val = k.val; rw [e1]; omega

theorem blk3 (c : Dev nD) (t : Fin cfg0.N) (q : Fin 2048) (k : Fin 2048) :
    (iblk m c 3 t : S2048x2048.Idx → Elt Ideal .bf16) (ix2 q k) = (m ((c : Thread nD τ).loc main_arg3)) (ix2 q k) := by
  obtain ⟨-, -, -, -, -, -, e0, e1, -⟩ := idx_facts t
  unfold iblk
  rw [View.read_apply]
  show V m c main_v5 _ = _
  rw [V_v5]
  refine congrArg (m ((c : Thread nD τ).loc main_arg3)) (funext fun a => Fin.ext ?_)
  match a with
  | ⟨0, _⟩ => show win0_3.index t (0 : Fin 2) * 2048 + 1 * q.val = q.val; rw [e0]; omega
  | ⟨1, _⟩ => show win0_3.index t (1 : Fin 2) * 2048 + 1 * k.val = k.val; rw [e1]; omega

/-- Read through a window at block (0, 0) of the array's own extents, an index is itself. -/
theorem emb_whole_2048x1024 (i0 i1 : Nat) (h0 : i0 = 0) (h1 : i1 = 0) (q : Fin 2048) (k : Fin 1024) (j : S2048x1024.Idx)
    (hj0 : (j 0).val = i0 * 2048 + 1 * q.val) (hj1 : (j 1).val = i1 * 1024 + 1 * k.val) : j = ix2 q k := by
  subst h0 h1
  funext a
  apply Fin.ext
  match a with
  | ⟨0, _⟩ => show (j 0).val = q.val; omega
  | ⟨1, _⟩ => show (j 1).val = k.val; omega

theorem blk4 (c : Dev nD) (t : Fin cfg0.N) (q : Fin 2048) (k : Fin 1024) :
    (iblk m c 4 t : S2048x1024.Idx → Elt Ideal .bf16) (ix2 q k) = (m ((c : Thread nD τ).loc main_arg4)) (ix2 (gateRow 0 (by norm_num) q) k) := by
  obtain ⟨-, -, -, -, -, -, -, -, e0, e1, -⟩ := idx_facts t
  unfold iblk
  rw [View.read_apply]
  show V m c main_v6 _ = _
  exact (congrArg (V m c main_v6 : S2048x1024.Idx → Elt Ideal .bf16)
    (emb_whole_2048x1024 _ _ e0 e1 q k _ rfl rfl)).trans (V_v6 m c q k)

theorem blk5 (c : Dev nD) (t : Fin cfg0.N) (q : Fin 2048) (k : Fin 1024) :
    (iblk m c 5 t : S2048x1024.Idx → Elt Ideal .bf16) (ix2 q k) = (m ((c : Thread nD τ).loc main_arg4)) (ix2 (gateRow 2048 (by norm_num) q) k) := by
  obtain ⟨-, -, -, -, -, -, -, -, -, -, e0, e1, -⟩ := idx_facts t
  unfold iblk
  rw [View.read_apply]
  show V m c main_v7 _ = _
  exact (congrArg (V m c main_v7 : S2048x1024.Idx → Elt Ideal .bf16)
    (emb_whole_2048x1024 _ _ e0 e1 q k _ rfl rfl)).trans (V_v7 m c q k)

theorem blk6 (c : Dev nD) (t : Fin cfg0.N) (q : Fin 2048) (k : Fin 1024) :
    (iblk m c 6 t : S2048x1024.Idx → Elt Ideal .bf16) (ix2 q k) = (m ((c : Thread nD τ).loc main_arg4)) (ix2 (gateRow 4096 (by norm_num) q) k) := by
  obtain ⟨-, -, -, -, -, -, -, -, -, -, -, -, e0, e1, -⟩ := idx_facts t
  unfold iblk
  rw [View.read_apply]
  show V m c main_v8 _ = _
  exact (congrArg (V m c main_v8 : S2048x1024.Idx → Elt Ideal .bf16)
    (emb_whole_2048x1024 _ _ e0 e1 q k _ rfl rfl)).trans (V_v8 m c q k)

/-! ## One block of the new state -/

/-- If the seven loaded blocks at a point T are the rows of the arrays described above, the block the body leaves is
    block T of the new state: at a block index y and the array index i with i₀ = 128 T + y₀, i₁ = y₁. -/
theorem block_eq_next (x0 : Vec Ideal S128x1024 .f32) (x1 : Vec Ideal S128x2048 .f32) (x2 : Vec Ideal S2048x1024 .bf16)
    (x3 : Vec Ideal S2048x2048 .bf16) (x4 x5 x6 : Vec Ideal S2048x1024 .bf16)
    (X : FVec Ideal ⟨2, ![4096, 1024]⟩ .f32) (P : FVec Ideal ⟨2, ![4096, 2560]⟩ .f32)
    (Win : FVec Ideal ⟨2, ![2048, 1024]⟩ .f32) (Wres : FVec Ideal ⟨2, ![2048, 2048]⟩ .f32)
    (Wg : FVec Ideal ⟨2, ![6144, 1024]⟩ .f32) (T : Nat)
    (h0 : ∀ (p : Fin 128) (k : Fin 1024) (b : Fin 4096), b.val = 128 * T + p.val → x0 (ix2 p k) = X (ix2 b k))
    (h1 : ∀ (p : Fin 128) (k : Fin 2048) (b : Fin 4096), b.val = 128 * T + p.val → x1 (ix2 p k) = active P (ix2 b k))
    (h2 : ∀ (q : Fin 2048) (k : Fin 1024), x2 (ix2 q k) = Win (ix2 q k))
    (h3 : ∀ (q : Fin 2048) (k : Fin 2048), x3 (ix2 q k) = Wres (ix2 q k))
    (h4 : ∀ (q : Fin 2048) (k : Fin 1024), x4 (ix2 q k) = Wg (ix2 (gateRow 0 (by norm_num) q) k))
    (h5 : ∀ (q : Fin 2048) (k : Fin 1024), x5 (ix2 q k) = Wg (ix2 (gateRow 2048 (by norm_num) q) k))
    (h6 : ∀ (q : Fin 2048) (k : Fin 1024), x6 (ix2 q k) = Wg (ix2 (gateRow 4096 (by norm_num) q) k))
    (y : S128x2560.Idx) (i : (⟨2, ![4096, 2560]⟩ : Shape).Idx)
    (hi0 : (i 0).val = 128 * T + (y 0).val) (hi1 : (i 1).val = (y 1).val) :
    blockOf (F := Ideal) (k0_pay1 (k0_pay3 x0 x1 x2 x3 x4 x5 x6)) (k0_pay2 (F := Ideal)) y = next X P Win Wres Wg i := by
  obtain ⟨b, q, rfl⟩ : ∃ (b : Fin 4096) (q : Fin 2560), i = ix2 b q := ⟨i 0, i 1, eq_ix2 i⟩
  by_cases hq : q.val < 2048
  · rw [next_apply_lt _ _ _ _ _ b q hq, blockOf_lo _ _ y (ix2 (y 0) (⟨q.val, hq⟩ : Fin 2048)) rfl hi1.symm]
    exact stored_entry x0 x1 x2 x3 x4 x5 x6 X P Win Wres Wg b (y 0) ⟨q.val, hq⟩ (fun k => h0 (y 0) k b hi0)
      (fun k => h1 (y 0) k b hi0) (h2 _) (h3 _) (h4 _) (h5 _) (h6 _)
  · rw [next_apply_ge _ _ _ _ _ b q hq,
      blockOf_hi _ _ y (ix2 (y 0) (⟨q.val - 2048, by have := q.isLt; omega⟩ : Fin 512)) rfl
        (by show (y 1).val = 2048 + (q.val - 2048); have : q.val = (y 1).val := hi1; omega)]
    exact pay2_apply _

/-- WHAT POINT t WRITES BACK is block t of the new state of the argument arrays. -/
theorem flushed_eq (c : Dev nD) (t : Fin cfg0.N) :
    (dats m 0 c).flushed 7 t = ((cfg0.win 7).blk t).view.read (Elt Ideal) (nextOf m c) := by
  rw [Value.flushed7_A, out_eq]
  obtain ⟨-, -, -, -, -, -, -, -, -, -, -, -, -, -, e0, e1⟩ := idx_facts t
  funext j
  show blockOf (F := Ideal) _ _ j = nextOf m c (((cfg0.win 7).blk t).view.emb j)
  refine block_eq_next (iblk m c 0 t) (iblk m c 1 t) (iblk m c 2 t) (iblk m c 3 t) (iblk m c 4 t) (iblk m c 5 t)
    (iblk m c 6 t) (m ((c : Thread nD τ).loc main_arg0)) (m ((c : Thread nD τ).loc main_arg1)) (m ((c : Thread nD τ).loc main_arg2)) (m ((c : Thread nD τ).loc main_arg3)) (m ((c : Thread nD τ).loc main_arg4)) t.val
    (fun p k b hb => blk0 m c t p k b hb) (fun p k b hb => blk1 m c t p k b hb) (blk2 m c t) (blk3 m c t)
    (blk4 m c t) (blk5 m c t) (blk6 m c t) j _ ?_ ?_
  · show win0_7.index t (0 : Fin 2) * 128 + 1 * (j 0).val = 128 * t.val + (j 0).val; rw [e0]; omega
  · show win0_7.index t (1 : Fin 2) * 2560 + 1 * (j 1).val = (j 1).val; rw [e1]; omega

/-! ## The whole array -/

/-- An index of the array is in point t's block iff each coordinate is in the block's range on its axis. -/
theorem mem_blk (t : Fin cfg0.N) (i : S4096x2560.Idx) :
    i ∈ ((cfg0.win 7).blk t).view.set ↔ ∀ a : Fin 2, win0_7.index t a * S128x2560.size a ≤ (i a).val
      ∧ (i a).val < win0_7.index t a * S128x2560.size a + S128x2560.size a := by
  show i ∈ ((View.whole main_v9).slice (win0_7.rect t)).set ↔ _
  rw [View.set_slice_whole, Rect.mem_set_unit]
  exact Iff.rfl

/-- Row r of the array lies in the block of point r / 128. -/
theorem cover (i : S4096x2560.Idx) :
    ∃ t : Fin cfg0.N, (cfg0.win 7).flush t = true ∧ i ∈ ((cfg0.win 7).blk t).view.set := by
  have hi0 : (i 0).val < 4096 := (i 0).isLt
  have hi1 : (i 1).val < 2560 := (i 1).isLt
  have hN : cfg0.N = 32 := N_0
  refine ⟨⟨(i 0).val / 128, by rw [hN]; omega⟩, flush0_7 _, ?_⟩
  obtain ⟨-, -, -, -, -, -, -, -, -, -, -, -, -, -, e0, e1⟩ := idx_facts ⟨(i 0).val / 128, by rw [hN]; omega⟩
  rw [mem_blk]
  intro a
  match a with
  | ⟨0, _⟩ =>
    show win0_7.index _ (0 : Fin 2) * 128 ≤ (i 0).val ∧ (i 0).val < win0_7.index _ (0 : Fin 2) * 128 + 128
    rw [e0]; dsimp only; omega
  | ⟨1, _⟩ =>
    show win0_7.index _ (1 : Fin 2) * 2560 ≤ (i 1).val ∧ (i 1).val < win0_7.index _ (1 : Fin 2) * 2560 + 2560
    rw [e1]; omega

/-- THE ARRAY after the run is the new state. -/
theorem final (c : Dev nD) : (dats m 0 c).arrAt 7 cfg0.N = nextOf m c :=
  (dats m 0 c).arrAt_eq_of_cover 7 (nextOf m c) (fun t _ => flushed_eq m c t) cover

/-- The run, read: the result array at the new state of the arguments, the arguments unchanged. -/
theorem run : θ_run defs (onTc (τ := τ) (main (F := Ideal))) ⟨m, fun _ => 0, ρ⟩ fun r => ∀ c : Dev nD,
      r.2.mem ((c : Thread nD τ).loc main_v9) = nextOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final

end
-- ==== Proof.RefNext.lean ====
/-
  The reference computes the reservoir step of `Cert.Reservoir.next`.

  Its three products against a transposed weight are x · wᵀ; the stacked gate product is cut into its three column
  ranges after the logistic function, which at (b, j) reads the stacked product at column 0 + j, 2048 + j, 4096 + j,
  that is rows 0 + j, 2048 + j, 4096 + j of the stacked weight; the logistic function is spelt 1 / (1 + e⁻ᶻ), which is
  its definition on the extended reals once the word 1.0 is read as 1; and the final padding by 512 columns of the
  converted integer 0 leaves the entries on the columns below 2048 and 0 after them.
-/
import proofs.«123859_j10806137717145_1_alg».proof.Proof.Gen.ReferenceIdeal.Run
import proofs.«123859_j10806137717145_1_alg».proof.Proof.Reservoir
import proofs.«123859_j10806137717145_1_alg».proof.Proof.LibConsts
import Idealize.ShloMosaic.Lib.ValueLayout
import Idealize.ShloMosaic.Lib.KernelVsHost

noncomputable section

namespace Cert.ReferenceIdeal.RefNext

open Cert.ReferenceIdeal Cert.ReferenceIdeal.Gen Idealize.ShloMosaic Idealize.ShloMosaic.TcCoe Idealize.SL.Sem
open Idealize.ShloMosaic.ValueIdx Cert.Lib Cert.Reservoir

/-- 1 / (1 + e⁻ᶻ) in the host's spelling, with the word 1.0, is the logistic function. -/
theorem hostLogistic (z : EReal) :
    Ideal.div (Ideal.ofBits .f32 0x3F800000#32) (Ideal.ofBits .f32 0x3F800000#32 + Ideal.exp (-z)) = Ideal.logistic z := by
  rw [Cert.LibConsts.ofBits_one]; rfl

theorem res_eq (m : (ℓ : Loc nD τ sig) → Buf (Elt Ideal) ℓ) (c : Dev nD) :
    Value.res_main_v31 (F := Ideal) m c
      = next (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold Value.res_main_v31
  rw [dotGeneral_transpose (M := 4096) (K := 1024) (N := 6144) _ rfl rfl rfl rfl rfl rfl,
    dotGeneral_transpose (M := 4096) (K := 1024) (N := 2048) _ rfl rfl rfl rfl rfl rfl,
    dotGeneral_transpose (M := 4096) (K := 2048) (N := 2048) _ rfl rfl rfl rfl rfl rfl]
  funext i
  obtain ⟨b, q, rfl⟩ : ∃ (b : Fin 4096) (q : Fin 2560), i = ix2 b q := ⟨i 0, i 1, eq_ix2 i⟩
  by_cases hq : q.val < 2048
  · rw [next_apply_lt _ _ _ _ _ b q hq]
    refine (pad_apply_of_inside (s := S4096x2048) (t := S4096x2560) ![0, 0] ![0, 512] ![0, 0] _ _
      pads_S4096x2048_S4096x2560_000_05120 h_S_ (ix2 b q) (ix2 b (⟨q.val, hq⟩ : Fin 2048)) (fun a => by
        match a with
        | ⟨0, _⟩ => show b.val = 0 + b.val * (0 + 1); omega
        | ⟨1, _⟩ => show q.val = 0 + q.val * (0 + 1); omega)).trans ?_
    rw [slice_eq_active]
    simp only [select_apply, cmpf_apply, subf_apply, mulf_apply, addf_apply, slice2_axis1_eq, broadcastInDim_constant,
      broadcast_apply, Host.divf, Host.exp, Host.negf, Host.tanh, Ideal.hostDivf_def, Ideal.hostUnary_exp_def,
      Ideal.hostUnary_tanh_def, Ideal.hostNegf_def, Ideal.negf_def, Scalar.ofBits, Ideal.ofBits_def, hostLogistic]
    rfl
  · rw [next_apply_ge _ _ _ _ _ b q hq]
    refine (pad_apply_of_not_inside (s := S4096x2048) (t := S4096x2560) ![0, 0] ![0, 512] ![0, 0] _ _
      pads_S4096x2048_S4096x2560_000_05120 h_S_ (ix2 b q) 1
      (fun hh => hq (by have h3 : (q.val - 0) / (0 + 1) < 2048 := hh.2.2; omega))).trans ?_
    exact sitofp_zero

end Cert.ReferenceIdeal.RefNext

end
-- ==== Proof.lean ====
/-
  A gated, leaky reservoir step computed two ways, and why the two agree on the extended reals.

  Both programs take an input x [4096, 1024], a previous state p [4096, 2560] of which the first 2048 columns are active,
  and weights W_in [2048, 1024], W_res [2048, 2048], W_g [6144, 1024] (three gates' rows stacked), and return the new
  state [4096, 2560]: on columns j < 2048
      s = gₒ · (c₉ · (g_f · p) + c₁ · tanh (gᵢ · (x · W_inᵀ + p · W_resᵀ))),   the entry s − ½ where s > ½, else s,
  with gᵢ, g_f, gₒ the logistic function of x · W_gᵀ on the three runs of 2048 rows of W_g, and 0 on the last 512 columns
  (`Cert.Reservoir.next`).

  One program works on 32 blocks of 128 rows. It cuts W_g into its three runs of rows and narrows all weights to bf16
  beforehand, multiplies each block of rows against the transposed weights into a zero accumulator, and stores the
  thresholded state and a splat of zero side by side into its output block. The other multiplies the whole arrays,
  applies the logistic function, spelt 1 / (1 + e⁻ᶻ), to the stacked gate product and cuts it into three runs of
  columns afterwards, and pads the thresholded state with 512 columns of zero.

  On the extended reals a change of float format is the identity, both products are the sum Σₖ x(b,k) · w(j,k), the
  spelt-out logistic function is the logistic function, and every other operation acts entry by entry with the same
  words for 0.9, 0.1 and 0.5 in the same order on both sides. Cutting rows of W_g before the product or columns of the
  product after it reads the same row o + j of the stack. No law of arithmetic beyond that is used, so the inputs'
  finiteness is not needed for the values: each side is shown equal to `next` of the arguments, index by index.
  The idealization rewrote nothing, so its statement is trivial.
-/
import proofs.«123859_j10806137717145_1_alg».proof.Defs
import proofs.«123859_j10806137717145_1_alg».proof.Proof.Gen.Kernel
import proofs.«123859_j10806137717145_1_alg».proof.Proof.Gen.Kernel.Skeleton
import proofs.«123859_j10806137717145_1_alg».proof.Proof.Gen.Kernel.Launch
import proofs.«123859_j10806137717145_1_alg».proof.Proof.Gen.Kernel.Points
import proofs.«123859_j10806137717145_1_alg».proof.Proof.Gen.Kernel.Frame
import proofs.«123859_j10806137717145_1_alg».proof.Proof.Gen.KernelIdeal
import proofs.«123859_j10806137717145_1_alg».proof.Proof.Gen.KernelIdeal.Skeleton
import proofs.«123859_j10806137717145_1_alg».proof.Proof.Gen.KernelIdeal.Launch
import proofs.«123859_j10806137717145_1_alg».proof.Proof.Gen.KernelIdeal.Points
import proofs.«123859_j10806137717145_1_alg».proof.Proof.Gen.KernelIdeal.Frame
import proofs.«123859_j10806137717145_1_alg».proof.Proof.Gen.ReferenceIdeal
import proofs.«123859_j10806137717145_1_alg».proof.Proof.Gen.Pre_finite_inputs
import proofs.«123859_j10806137717145_1_alg».proof.Proof.Gen.KernelIdeal.Value
import proofs.«123859_j10806137717145_1_alg».proof.Proof.Gen.ReferenceIdeal.Run
import proofs.«123859_j10806137717145_1_alg».proof.Proof.Gen.ReferenceIdeal.Read
import proofs.«123859_j10806137717145_1_alg».proof.Proof.Final
import proofs.«123859_j10806137717145_1_alg».proof.Proof.RefNext
import Idealize.ShloMosaic.Adequacy
import Idealize.ShloMosaic.Init

noncomputable section

namespace Cert.Proof

open Idealize.ShloMosaic Idealize.SL.Sem

/-- The word-level program terminates without a fault and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of array operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten when the program was read over the extended reals. -/
theorem preserves : Cert.preserves_Kernel_KernelIdeal := trivial

/-- From arguments that agree, both programs end with the new state of those arguments. -/
theorem algebraic : Cert.algebraic_KernelIdeal_ReferenceIdeal := by
  intro m ρ m' ρ' _ hagree
  refine ⟨fun c => Cert.KernelIdeal.Final.nextOf m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefNext.res_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
